-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x128 : Shape := ⟨2, ![640000, 128]⟩
abbrev S10000x128 : Shape := ⟨2, ![10000, 128]⟩
abbrev S640000 : Shape := ⟨1, ![640000]⟩
abbrev S256x128 : Shape := ⟨2, ![256, 128]⟩
abbrev S128 : Shape := ⟨1, ![128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S640000x128 .f32) (main_arg1 : FVec F S10000x128 .f32) (main_arg2 : IVec S640000 32) (main_arg3 : FVec F S256x128 .f32) (main_arg4 : FVec F S128 .f32) : IVec S_ 1 :=
  let main_v0 : FVec F S640000x128 .f32 := Host.absf main_arg0
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S640000x128 : Shape := ⟨2, ![640000, 128]⟩
abbrev S10000x128 : Shape := ⟨2, ![10000, 128]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S128x128 : Shape := ⟨2, ![128, 128]⟩
abbrev S1000x128 : Shape := ⟨2, ![1000, 128]⟩
abbrev S1x128 : Shape := ⟨2, ![1, 128]⟩

abbrev nBuf : Space → Nat
  | .hbm => 12
  | .vmem => 9
  | .smem => 0
  | _ => 0

abbrev bufTy : (tb : Table) → Fin (tcTables nBuf tb) → BufTy
  | .hbm, ⟨0, _⟩ => ⟨S640000x128, .f32⟩
  | .hbm, ⟨1, _⟩ => ⟨S10000x128, .f32⟩
  | .hbm, ⟨2, _⟩ => ⟨S640000, .i32⟩
  | .hbm, ⟨3, _⟩ => ⟨S256x128, .f32⟩
  | .hbm, ⟨4, _⟩ => ⟨S128, .f32⟩
  | .hbm, ⟨5, _⟩ => ⟨S_, .f32⟩
  | .hbm, ⟨6, _⟩ => ⟨S10000x128, .f32⟩
  | .hbm, ⟨7, _⟩ => ⟨S640000x1, .i32⟩
  | .hbm, ⟨8, _⟩ => ⟨S10000x128, .f32⟩
  | .hbm, ⟨9, _⟩ => ⟨S128x128, .f32⟩
  | .hbm, ⟨10, _⟩ => ⟨S128x128, .f32⟩
  | .hbm, ⟨11, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S1000x128, .f32⟩
  | .local _ .vmem, ⟨8, _⟩ => ⟨S1000x128, .f32⟩
  | _, _ => ⟨S640000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S10000x128 : S_.BroadcastsInDim S10000x128 (![] : Fin 0 → Fin S10000x128.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  scatter_S10000x128_S640000x1_S640000x128_1_0_0_1_wf : ScatterDims.WF S10000x128 S640000x1 S640000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)

variable [Facts₀]

def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg1) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S640000x128 : Shape := ⟨2, ![640000, 128]⟩
abbrev S10000x128 : Shape := ⟨2, ![10000, 128]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S10000x256 : Shape := ⟨2, ![10000, 256]⟩
abbrev S1x128 : Shape := ⟨2, ![1, 128]⟩

abbrev nBuf : Space → Nat
  | .hbm => 14
  | .vmem => 0
  | .smem => 0
  | _ => 0

abbrev bufTy : (tb : Table) → Fin (tcTables nBuf tb) → BufTy
  | .hbm, ⟨0, _⟩ => ⟨S640000x128, .f32⟩
  | .hbm, ⟨1, _⟩ => ⟨S10000x128, .f32⟩
  | .hbm, ⟨2, _⟩ => ⟨S640000, .i32⟩
  | .hbm, ⟨3, _⟩ => ⟨S256x128, .f32⟩
  | .hbm, ⟨4, _⟩ => ⟨S128, .f32⟩
  | .hbm, ⟨5, _⟩ => ⟨S_, .f32⟩
  | .hbm, ⟨6, _⟩ => ⟨S10000x128, .f32⟩
  | .hbm, ⟨7, _⟩ => ⟨S640000x1, .i32⟩
  | .hbm, ⟨8, _⟩ => ⟨S10000x128, .f32⟩
  | .hbm, ⟨9, _⟩ => ⟨S10000x256, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | _, _ => ⟨S640000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S640000_S640000x1_0 : S640000.BroadcastsInDim S640000x1 (![0] : Fin 1 → Fin S640000x1.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000x128_S640000x1_S640000x128_1_0_0_1_wf : ScatterDims.WF S10000x128 S640000x1 S640000x128 [1] [0] [0] 1
  dot_S10000x256_S256x128_S10000x128_1_0_0_1_n_n_wf : DotDims.WF S10000x256 S256x128 S10000x128 [1] [0] [0] [1] [] []

variable [Facts₀]

def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  The node update of one message-passing block, as a function on extended reals.

  With `node` the nodes' own features (10000 × 128), `agg` the edge features summed into their receiving nodes
  (10000 × 128), `W` a 256 × 128 weight and `b` a bias of 128, the update of node `n` at output feature `j` is

      ∑ k < 128, node[n, k] · W[k, j]  +  ∑ k < 128, agg[n, k] · W[128 + k, j]  +  b[j].

  The weight's upper 128 rows meet the node's own features and its lower 128 rows the aggregated ones: this is the
  product of the row `[node[n, ·] | agg[n, ·]]` of length 256 with column `j` of `W`, its sum over 256 split at 128
  (`sum_halves`). The split is a regrouping of a finite sum in a commutative monoid, so it holds on the extended reals
  at the infinities too, and no finiteness of the inputs is used anywhere.
-/
import Idealize.ShloMosaic.PureOps.Ideal
import Idealize.ShloMosaic.Lib.ValueIdx
import Mathlib.Algebra.BigOperators.Fin

noncomputable section

namespace Cert.NodeUpdate

open Idealize.ShloMosaic Idealize.ShloMosaic.ValueIdx

/-- Row `k` of the weight's upper half: the rows that meet a node's own features. -/
abbrev upper (k : Fin 128) : Fin 256 := ⟨k.val, by omega⟩

/-- Row `128 + k` of the weight: its lower half, the rows that meet the aggregated edge features. -/
abbrev lower (k : Fin 128) : Fin 256 := ⟨128 + k.val, by omega⟩

/-- The node update, index by index: own features against the weight's upper half, aggregated features against its
    lower half, plus the bias of the output feature. -/
def nodeUpdate (node agg : (⟨2, ![10000, 128]⟩ : Shape).Idx → EReal) (W : (⟨2, ![256, 128]⟩ : Shape).Idx → EReal)
    (b : (⟨1, ![128]⟩ : Shape).Idx → EReal) : (⟨2, ![10000, 128]⟩ : Shape).Idx → EReal := fun i =>
  (∑ k : Fin 128, node (ix2 (n0 := 10000) (n1 := 128) (i 0) k) * W (ix2 (n0 := 256) (n1 := 128) (upper k) (i 1)))
    + (∑ k : Fin 128, agg (ix2 (n0 := 10000) (n1 := 128) (i 0) k) * W (ix2 (n0 := 256) (n1 := 128) (lower k) (i 1)))
    + b (ix1 (n := 128) (i 1))

/-- A sum over 256 terms is the sum of its first 128 and of its last 128. -/
theorem sum_halves (f : Fin 256 → EReal) :
    ∑ k : Fin 256, f k = ∑ k : Fin 128, f (upper k) + ∑ k : Fin 128, f (lower k) :=
  Fin.sum_univ_add (a := 128) (b := 128) f

end Cert.NodeUpdate

end
-- ==== Proof.KernelBlock.lean ====
/-
  One grid point of the kernel, read at an index.

  At a grid point the body holds a block `x0` of 1000 rows of the nodes' own features, the matching block `x1` of the
  aggregated features, the weight's upper half `x2` and lower half `x3` (128 × 128 each) and the bias `x4`. It narrows
  all four matrices to bf16 — on the extended reals a change of float format is the identity —, takes the two
  products `x0 · x2` and `x1 · x3`, each accumulated into zeros, adds them, and adds the bias broadcast along the rows.
  So the stored block at row `p` and column `q` is

      ∑ k < 128, x0[p, k] · x2[k, q]  +  ∑ k < 128, x1[p, k] · x3[k, q]  +  x4[q].
-/
import proofs.«159996_j21509196219220_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.NodeUpdate.KernelBlock

open Cert.KernelIdeal Cert.KernelIdeal.Gen Idealize.ShloMosaic Idealize.ShloMosaic.ValueIdx

/-! ## The product's operand indices: at output (p, q) and contraction position k they are (p, k) and (k, q) -/

theorem lhs_axis0 (i : S1000x128.Idx) (c : dot_S1000x128_S128x128_S1000x128_1_0_0_1_n_n.contr.Idx) :
    (dot_S1000x128_S128x128_S1000x128_1_0_0_1_n_n.lhsIdx i c 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_axis1 (i : S1000x128.Idx) (c : dot_S1000x128_S128x128_S1000x128_1_0_0_1_n_n.contr.Idx) :
    (dot_S1000x128_S128x128_S1000x128_1_0_0_1_n_n.lhsIdx i c 1).val = (c ⟨0, by decide⟩).val :=
  dot_S1000x128_S128x128_S1000x128_1_0_0_1_n_n.lhsIdx_val_of_single rfl i c
theorem rhs_axis0 (i : S1000x128.Idx) (c : dot_S1000x128_S128x128_S1000x128_1_0_0_1_n_n.contr.Idx) :
    (dot_S1000x128_S128x128_S1000x128_1_0_0_1_n_n.rhsIdx i c 0).val = (c ⟨0, by decide⟩).val :=
  dot_S1000x128_S128x128_S1000x128_1_0_0_1_n_n.rhsIdx_val_of_single rfl i c
theorem rhs_axis1 (i : S1000x128.Idx) (c : dot_S1000x128_S128x128_S1000x128_1_0_0_1_n_n.contr.Idx) :
    (dot_S1000x128_S128x128_S1000x128_1_0_0_1_n_n.rhsIdx i c 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A 1000 × 128 by 128 × 128 product accumulated into zeros is, at (p, q), the sum over k of l[p, k] · r[k, q]. -/
theorem matmul_zero_at {φ₁ φ₂ : FTy} (l : FVec Ideal S1000x128 φ₁) (r : FVec Ideal S128x128 φ₂) (p : Fin 1000) (q : Fin 128) :
    matmul dot_S1000x128_S128x128_S1000x128_1_0_0_1_n_n none l r (constant S1000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The stored block at (p, q): the two products' sums over the 128 shared positions, plus the bias of column q. -/
theorem stored_at (x0 x1 : Vec Ideal S1000x128 .f32) (x2 x3 : Vec Ideal S128x128 .f32) (x4 : Vec Ideal S128 .f32)
    (p : Fin 1000) (q : Fin 128) :
    k0_pay1 (F := Ideal) x0 x1 x2 x3 x4 (ix2 p q)
      = (∑ k : Fin 128, x0 (ix2 p k) * x2 (ix2 k q)) + (∑ k : Fin 128, x1 (ix2 p k) * x3 (ix2 k q)) + x4 (ix1 q) := by
  unfold k0_pay1
  rw [addf_apply, addf_apply, matmul_zero_at, matmul_zero_at, broadcastTo_1b_ab_apply, shapeCast_a_1a_apply]
  simp only [shapeCast_self, truncf_apply]

end Cert.NodeUpdate.KernelBlock

end
-- ==== Proof.KernelValue.lean ====
/-
  The kernel's result array is the node update.

  Before the kernel's one region, the host has summed the edge features into their receiving nodes (`agg`) and cut
  the 256 × 128 weight into its upper and lower 128 rows. The region walks 10 grid points; at point `t` it stages rows
  `1000·t … 1000·t + 999` of the nodes' features and of `agg`, the two weight halves and the bias whole, and writes back
  rows `1000·t … 1000·t + 999` of the result. Row `p` of the stored block (KernelBlock's `stored_at`) is therefore row
  `1000·t + p` of the node update; the ten blocks tile the 10000 rows, so the whole result array is the node update.
-/
import proofs.«159996_j21509196219220_1_alg».proof.Proof.Gen.KernelIdeal.Value
import proofs.«159996_j21509196219220_1_alg».proof.Proof.KernelBlock
import proofs.«159996_j21509196219220_1_alg».proof.Proof.Spec
import Idealize.ShloMosaic.Lib.Pipeline.Value
import Idealize.ShloMosaic.Lib.StableHlo.Run
import Idealize.ShloMosaic.Lib.Tactic

set_option maxRecDepth 16384

noncomputable section

namespace Cert.NodeUpdate.KernelValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the host writes before the region -/

/-- The edge features summed into their receiving nodes: the host's scatter-add of the edge features by receiver
    index onto zeros. -/
def agg (c : Dev nD) : S10000x128.Idx → EReal :=
  Host.scatterAdd (F := Ideal) scatter_S10000x128_S640000x1_S640000x128_1_0_0_1
    (broadcastInDim S10000x128 ![] bcast_S_S10000x128 (constant (F := Ideal) S_ .f32 0x00000000#32))
    (broadcastInDim S640000x1 ![0] bcast_S640000_S640000x1_0 (m ((c : Thread nD τ).loc main_arg2)))
    (m ((c : Thread nD τ).loc main_arg0))

theorem V_agg (c : Dev nD) : (V m c main_v2 : S10000x128.Idx → EReal) = agg m c := by
  dsimp only [Gen.V, Gen.hostOps0]
  after_results
  rfl

theorem V_upper (c : Dev nD) : (V m c main_v3 : S128x128.Idx → EReal)
    = extractStridedSlice S128x128 ![0, 0] (m ((c : Thread nD τ).loc main_arg3)) slices_S256x128_S128x128_0_0 := by
  dsimp only [Gen.V, Gen.hostOps0]
  after_results

theorem V_lower (c : Dev nD) : (V m c main_v4 : S128x128.Idx → EReal)
    = extractStridedSlice S128x128 ![128, 0] (m ((c : Thread nD τ).loc main_arg3)) slices_S256x128_S128x128_128_0 := by
  dsimp only [Gen.V, Gen.hostOps0]
  after_results

/-! ## The windows' blocks, read at an index -/

theorem hz2 : (![0, 0] : Fin 2 → Nat) = fun _ => 0 := funext fun a => by fin_cases a <;> rfl
theorem hz1 : (![0] : Fin 1 → Nat) = fun _ => 0 := funext fun a => by fin_cases a; rfl

/-- The printed index maps over the ten points: the three row-blocked windows sit at block `t` of the rows, and the
    whole-array windows at block 0. -/
theorem idx_facts : ∀ t : Fin cfg0.N, t.val < 10
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the nodes' block at point `t` is row `1000·t + p` of the nodes' features. -/
theorem node_block (c : Dev nD) (t : Fin cfg0.N) (p : Fin 1000) (k : Fin 128) (r : Fin 10000) (hr : r.val = 1000 * t.val + p.val) :
    (iblk m c 0 t : Vec Ideal S1000x128 .f32) (ix2 p k) = (m ((c : Thread nD τ).loc main_arg1) : S10000x128.Idx → EReal) (ix2 r k) := by
  obtain ⟨-, e0, e1, -⟩ := idx_facts t
  unfold iblk
  rw [View.read_apply]
  show (V m c main_arg1 : S10000x128.Idx → EReal) _ = _
  rw [V_main_arg1]
  refine congrArg (m ((c : Thread nD τ).loc main_arg1) : S10000x128.Idx → EReal) (funext fun a => Fin.ext ?_)
  match a with
  | ⟨0, _⟩ => show win0_0.index t (0 : Fin 2) * 1000 + 1 * p.val = r.val; omega
  | ⟨1, _⟩ => show win0_0.index t (1 : Fin 2) * 128 + 1 * k.val = k.val; omega

/-- Row `p` of the aggregated features' block at point `t` is row `1000·t + p` of `agg`. -/
theorem agg_block (c : Dev nD) (t : Fin cfg0.N) (p : Fin 1000) (k : Fin 128) (r : Fin 10000) (hr : r.val = 1000 * t.val + p.val) :
    (iblk m c 1 t : Vec Ideal S1000x128 .f32) (ix2 p k) = agg m c (ix2 r k) := by
  obtain ⟨-, -, -, e0, e1, -⟩ := idx_facts t
  unfold iblk
  rw [View.read_apply]
  show (V m c main_v2 : S10000x128.Idx → EReal) _ = _
  rw [V_agg]
  refine congrArg (agg m c) (funext fun a => Fin.ext ?_)
  match a with
  | ⟨0, _⟩ => show win0_1.index t (0 : Fin 2) * 1000 + 1 * p.val = r.val; omega
  | ⟨1, _⟩ => show win0_1.index t (1 : Fin 2) * 128 + 1 * k.val = k.val; omega

/-- The first weight window, at every point, is the weight's upper 128 rows. -/
theorem upper_block (c : Dev nD) (t : Fin cfg0.N) (k q : Fin 128) :
    (iblk m c 2 t : Vec Ideal S128x128 .f32) (ix2 k q) = (m ((c : Thread nD τ).loc main_arg3) : S256x128.Idx → EReal) (ix2 (upper k) q) := by
  obtain ⟨-, -, -, -, -, e0, e1, -⟩ := idx_facts t
  unfold iblk
  rw [View.read_apply]
  show (V m c main_v3 : S128x128.Idx → EReal) _ = _
  rw [V_upper]
  refine extractStridedSlice_apply _ _ _ _ _ fun a => ?_
  match a with
  | ⟨0, _⟩ => show k.val = 0 + (win0_2.index t (0 : Fin 2) * 128 + 1 * k.val); omega
  | ⟨1, _⟩ => show q.val = 0 + (win0_2.index t (1 : Fin 2) * 128 + 1 * q.val); omega

/-- The second weight window, at every point, is the weight's lower 128 rows. -/
theorem lower_block (c : Dev nD) (t : Fin cfg0.N) (k q : Fin 128) :
    (iblk m c 3 t : Vec Ideal S128x128 .f32) (ix2 k q) = (m ((c : Thread nD τ).loc main_arg3) : S256x128.Idx → EReal) (ix2 (lower k) q) := by
  obtain ⟨-, -, -, -, -, -, -, e0, e1, -⟩ := idx_facts t
  unfold iblk
  rw [View.read_apply]
  show (V m c main_v4 : S128x128.Idx → EReal) _ = _
  rw [V_lower]
  refine extractStridedSlice_apply _ _ _ _ _ fun a => ?_
  match a with
  | ⟨0, _⟩ => show 128 + k.val = 128 + (win0_3.index t (0 : Fin 2) * 128 + 1 * k.val); omega
  | ⟨1, _⟩ => show q.val = 0 + (win0_3.index t (1 : Fin 2) * 128 + 1 * q.val); omega

/-- The bias window, at every point, is the bias. -/
theorem bias_block (c : Dev nD) (t : Fin cfg0.N) (q : Fin 128) :
    (iblk m c 4 t : Vec Ideal S128 .f32) (ix1 q) = (m ((c : Thread nD τ).loc main_arg4) : S128.Idx → EReal) (ix1 q) := by
  obtain ⟨-, -, -, -, -, -, -, -, -, e0, -⟩ := idx_facts t
  unfold iblk
  rw [View.read_apply]
  show (V m c main_arg4 : S128.Idx → EReal) _ = _
  rw [V_main_arg4]
  refine congrArg (m ((c : Thread nD τ).loc main_arg4) : S128.Idx → EReal) (funext fun a => Fin.ext ?_)
  match a with
  | ⟨0, _⟩ => show win0_4.index t (0 : Fin 1) * 128 + 1 * q.val = q.val; omega

/-! ## What a point writes back, the cover, and the whole array -/

/-- The result array the kernel ends with: the node update of the nodes' features, the aggregated edge features, the
    weight and the bias. -/
def result (c : Dev nD) : S10000x128.Idx → EReal :=
  nodeUpdate (m ((c : Thread nD τ).loc main_arg1)) (agg m c) (m ((c : Thread nD τ).loc main_arg3)) (m ((c : Thread nD τ).loc main_arg4))

/-- Point `t` writes back rows `1000·t … 1000·t + 999` of the node update. -/
theorem flushed_eq (c : Dev nD) (t : Fin cfg0.N) :
    (dats m 0 c).flushed 5 t = ((cfg0.win 5).blk t).view.read (Elt Ideal) (result m c) := by
  obtain ⟨ht, -, -, -, -, -, -, -, -, -, e0, e1⟩ := idx_facts t
  rw [flushed5]
  unfold out0_5
  rw [View.canon_unit_zero hz2]
  simp only [View.ld_unit_zero (S := S1000x128) hz2, View.ld_unit_zero (S := S128x128) hz2, View.ld_unit_zero (S := S128) hz1]
  funext j
  obtain ⟨p, q, rfl⟩ : ∃ (p : Fin 1000) (q : Fin 128), j = ix2 p q := ⟨j 0, j 1, eq_ix2 j⟩
  have hrow : 1000 * t.val + p.val < 10000 := by have := p.isLt; omega
  have hemb : ((cfg0.win 5).blk t).view.emb (ix2 p q) = (ix2 (n0 := 10000) (n1 := 128) ⟨1000 * t.val + p.val, hrow⟩ q : S10000x128.Idx) := by
    funext a; apply Fin.ext
    match a with
    | ⟨0, _⟩ => show win0_5.index t (0 : Fin 2) * 1000 + 1 * p.val = 1000 * t.val + p.val; omega
    | ⟨1, _⟩ => show win0_5.index t (1 : Fin 2) * 128 + 1 * q.val = q.val; omega
  show k0_pay1 (F := Ideal) (iblk m c 0 t) (iblk m c 1 t) (iblk m c 2 t) (iblk m c 3 t) (iblk m c 4 t) (ix2 p q)
    = result m c (((cfg0.win 5).blk t).view.emb (ix2 p q))
  rw [hemb]
  refine (KernelBlock.stored_at _ _ _ _ _ p q).trans ?_
  unfold result nodeUpdate
  refine congrArg₂ (· + ·) (congrArg₂ (· + ·) (Finset.sum_congr rfl fun k _ => ?_) (Finset.sum_congr rfl fun k _ => ?_)) ?_
  · exact congrArg₂ (· * ·) (node_block m c t p k ⟨1000 * t.val + p.val, hrow⟩ rfl) (upper_block m c t k q)
  · exact congrArg₂ (· * ·) (agg_block m c t p k ⟨1000 * t.val + p.val, hrow⟩ rfl) (lower_block m c t k q)
  · exact bias_block m c t q

/-- An index of the result array lies in point `t`'s block iff each coordinate lies in the block's range on its axis. -/
theorem mem_blk (t : Fin cfg0.N) (i : S10000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v5).slice (win0_5.rect t)).set ↔ _
  rw [View.set_slice_whole, Rect.mem_set_unit]
  exact Iff.rfl

/-- The ten blocks of 1000 rows tile the 10000 rows: row `r` lies in the block of point `r / 1000`. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ : ∃ t : Fin cfg0.N, t.val = (i 0).val / 1000 := ⟨⟨(i 0).val / 1000, by rw [show cfg0.N = 10 from N_0]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-- So the result array, after the run, is the node update. -/
theorem final (c : Dev nD) : (dats m 0 c).arrAt 5 cfg0.N = result m c :=
  (dats m 0 c).arrAt_eq_of_cover 5 (result m c) (fun t _ => flushed_eq m c t) cover

/-- The kernel's run, read: the result array at the node update, the five arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.NodeUpdate.KernelValue

end
-- ==== Proof.RefValue.lean ====
/-
  The reference's result is the node update.

  The reference joins each node's own features and its aggregated edge features into one row of length 256, takes
  that row's product with the 256 × 128 weight, and adds the bias. Read at node `n` and output feature `j`: the sum
  over the 256 joined positions splits at 128; a position in the first half reads the node's own feature and meets
  the weight's upper rows, a position in the second half reads the aggregated feature and meets its lower rows. The
  aggregated features themselves — the scatter-add of the edge features by receiver index — are kept as one term, the
  same on both sides of the claim.
-/
import proofs.«159996_j21509196219220_1_alg».proof.Proof.Gen.ReferenceIdeal.Read
import proofs.«159996_j21509196219220_1_alg».proof.Proof.Spec

noncomputable section

namespace Cert.NodeUpdate.RefValue

open Cert.ReferenceIdeal Cert.ReferenceIdeal.Gen Cert.ReferenceIdeal.Read Idealize.ShloMosaic Idealize.ShloMosaic.ValueIdx

/-- A joined row's first 128 positions are the node's own features. -/
theorem joined_upper (x0 : (⟨S640000x128, .f32⟩ : BufTy).Contents (Elt Ideal)) (x1 : (⟨S10000x128, .f32⟩ : BufTy).Contents (Elt Ideal))
    (x2 : (⟨S640000, .i32⟩ : BufTy).Contents (Elt Ideal)) (i : S10000x128.Idx) (k : Fin 128) :
    val_main_v3 (F := Ideal) x0 x1 x2 (lidx_main_v4 i (upper k)) = x1 (ix2 (n0 := 10000) (n1 := 128) (i 0) k) := by
  unfold val_main_v3
  refine concatenate_pair_apply_left (t := S10000x256) (s₁ := S10000x128) (s₂ := S10000x128) 1 x1 _ _ _ rfl _ fun b => ?_
  match b with
  | ⟨0, _⟩ => rfl
  | ⟨1, _⟩ => rfl

/-- Its last 128 positions are the aggregated edge features. -/
theorem joined_lower (x0 : (⟨S640000x128, .f32⟩ : BufTy).Contents (Elt Ideal)) (x1 : (⟨S10000x128, .f32⟩ : BufTy).Contents (Elt Ideal))
    (x2 : (⟨S640000, .i32⟩ : BufTy).Contents (Elt Ideal)) (i : S10000x128.Idx) (k : Fin 128) :
    val_main_v3 (F := Ideal) x0 x1 x2 (lidx_main_v4 i (lower k)) = val_main_v2 (F := Ideal) x0 x2 (ix2 (n0 := 10000) (n1 := 128) (i 0) k) := by
  unfold val_main_v3
  refine concatenate_pair_apply_right (t := S10000x256) (s₁ := S10000x128) (s₂ := S10000x128) 1 x1 _ _ _ rfl rfl _ (fun b hb => ?_) ?_
  · match b with
    | ⟨0, _⟩ => rfl
    | ⟨1, _⟩ => exact absurd rfl hb
  · show k.val + 128 = 128 + k.val
    omega

/-- The reference's result, as a function of its five arguments, is the node update of the node features, the
    scatter-added edge features, the weight and the bias. -/
theorem result_eq (x0 : (⟨S640000x128, .f32⟩ : BufTy).Contents (Elt Ideal)) (x1 : (⟨S10000x128, .f32⟩ : BufTy).Contents (Elt Ideal))
    (x2 : (⟨S640000, .i32⟩ : BufTy).Contents (Elt Ideal)) (x3 : (⟨S256x128, .f32⟩ : BufTy).Contents (Elt Ideal))
    (x4 : (⟨S128, .f32⟩ : BufTy).Contents (Elt Ideal)) :
    val_main_v7 (F := Ideal) x0 x1 x2 x3 x4 = nodeUpdate x1 (val_main_v2 (F := Ideal) x0 x2) x3 x4 := by
  funext i
  rw [val_main_v7_apply, val_main_v4_apply, val_main_v6_apply, val_main_v5_apply, sum_halves]
  unfold nodeUpdate
  show (_ + _) + _ = (_ + _) + _
  refine congrArg₂ (· + ·) (congrArg₂ (· + ·) ?_ ?_) ?_
  · refine Finset.sum_congr rfl fun k _ => ?_
    rw [joined_upper]
    refine congrArg (_ * x3 ·) (funext fun a => ?_)
    match a with
    | ⟨0, _⟩ => rfl
    | ⟨1, _⟩ => rfl
  · refine Finset.sum_congr rfl fun k _ => ?_
    rw [joined_lower]
    refine congrArg (_ * x3 ·) (funext fun a => ?_)
    match a with
    | ⟨0, _⟩ => rfl
    | ⟨1, _⟩ => rfl
  · refine congrArg x4 (funext fun a => ?_)
    match a with
    | ⟨0, _⟩ => rfl

end Cert.NodeUpdate.RefValue

end
-- ==== Proof.lean ====
/-
  A graph network's node block: every edge's features are summed into the node that receives the edge, each node's
  own features are joined with that sum into a row of length 256, and the row goes through a linear layer
  (a 256 × 128 weight and a bias).

  The reference computes it as written: the join, one product with the whole weight, the bias. The kernel never
  forms the join: it cuts the weight into its upper and lower 128 rows on the host and, 1000 nodes at a time, adds
  the product of the nodes' own features with the upper half to the product of the aggregated features with the lower
  half, then the bias. Both programs take the aggregated features from the same host scatter-add of the same
  arguments, so that sum is one term on both sides and is never opened.

  On the extended reals the two results agree index by index: the reference's sum over the 256 joined positions is
  the kernel's two sums over 128, by regrouping a finite sum (`Cert.NodeUpdate.sum_halves`). Only commutativity and
  associativity of addition are used, so the infinities need no care and the finiteness of the inputs is not used.
  The kernel narrows its operands to bf16 before each product; on the extended reals that is the identity.

  `Cert.NodeUpdate.nodeUpdate` (Spec) is the common value; `KernelValue.run` reads the kernel's run as that value and
  `RefValue.result_eq` the reference's. The three frames are the generated ones (the reference's is its run with the
  result dropped); the idealization rewrote nothing, so the preservation claim is trivial.
-/
import proofs.«159996_j21509196219220_1_alg».proof.Defs
import proofs.«159996_j21509196219220_1_alg».proof.Proof.Gen.Kernel
import proofs.«159996_j21509196219220_1_alg».proof.Proof.Gen.Kernel.Skeleton
import proofs.«159996_j21509196219220_1_alg».proof.Proof.Gen.Kernel.Launch
import proofs.«159996_j21509196219220_1_alg».proof.Proof.Gen.Kernel.Points
import proofs.«159996_j21509196219220_1_alg».proof.Proof.Gen.Kernel.Frame
import proofs.«159996_j21509196219220_1_alg».proof.Proof.Gen.KernelIdeal
import proofs.«159996_j21509196219220_1_alg».proof.Proof.Gen.KernelIdeal.Skeleton
import proofs.«159996_j21509196219220_1_alg».proof.Proof.Gen.KernelIdeal.Launch
import proofs.«159996_j21509196219220_1_alg».proof.Proof.Gen.KernelIdeal.Points
import proofs.«159996_j21509196219220_1_alg».proof.Proof.Gen.KernelIdeal.Frame
import proofs.«159996_j21509196219220_1_alg».proof.Proof.Gen.ReferenceIdeal
import proofs.«159996_j21509196219220_1_alg».proof.Proof.Gen.Pre_finite_inputs
import proofs.«159996_j21509196219220_1_alg».proof.Proof.Gen.KernelIdeal.Value
import proofs.«159996_j21509196219220_1_alg».proof.Proof.Gen.ReferenceIdeal.Run
import proofs.«159996_j21509196219220_1_alg».proof.Proof.Gen.ReferenceIdeal.Read
import proofs.«159996_j21509196219220_1_alg».proof.Proof.Spec
import proofs.«159996_j21509196219220_1_alg».proof.Proof.KernelBlock
import proofs.«159996_j21509196219220_1_alg».proof.Proof.KernelValue
import proofs.«159996_j21509196219220_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the node update of the
    nodes' features, the scatter-added edge features, the weight and the bias. -/
theorem algebraic : Cert.algebraic_KernelIdeal_ReferenceIdeal := by
  intro m ρ m' ρ' _ hagree
  refine ⟨fun c => Cert.NodeUpdate.KernelValue.result m c, Cert.NodeUpdate.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.NodeUpdate.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
